-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  main_v8
-- ==== Kernel.lean ====
abbrev S4x4096x64 : Shape := ⟨3, ![4, 4096, 64]⟩
abbrev S1x512x64 : Shape := ⟨3, ![1, 512, 64]⟩
abbrev S1x4096x64 : Shape := ⟨3, ![1, 4096, 64]⟩
abbrev S1x512x4096 : Shape := ⟨3, ![1, 512, 4096]⟩
abbrev S1x512 : Shape := ⟨2, ![1, 512]⟩
abbrev S1x512x1 : Shape := ⟨3, ![1, 512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .local _ .vmem, ⟨0, _⟩ => ⟨S1x512x64, .f32⟩
  | .local _ .vmem, ⟨1, _⟩ => ⟨S1x512x64, .f32⟩
  | .local _ .vmem, ⟨2, _⟩ => ⟨S1x4096x64, .f32⟩
  | .local _ .vmem, ⟨3, _⟩ => ⟨S1x4096x64, .f32⟩
  | .local _ .vmem, ⟨4, _⟩ => ⟨S1x512x64, .f32⟩
  | .local _ .vmem, ⟨5, _⟩ => ⟨S1x512x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  bitsLt_bf16_f32 : FTy.bits .bf16 < FTy.bits .f32
  inb_S1x4096x64_S1x4096x64_0_0_0 : ∀ a, (![0, 0, 0] : Fin 3 → Nat) a + S1x4096x64.size a ≤ S1x4096x64.size a
  h_S1x4096x64 : 0 < S1x4096x64.numel
  reduces_S1x512x4096_S1x512 : S1x512x4096.Reduces [2] S1x512
  shapeCasts_S1x512_S1x512x1 : S1x512.ShapeCasts S1x512x1
  broadcasts_S1x512x1_S1x512x4096 : S1x512x1.Broadcasts S1x512x4096
  broadcasts_S1x512x1_S1x512x64 : S1x512x1.Broadcasts S1x512x64
  dot_S1x512x64_S1x4096x64_S1x512x4096_2_2_1_1_0_0_wf : DotDims.WF S1x512x64 S1x4096x64 S1x512x4096 [2] [2] [1] [1] [0] [0]
  dot_S1x512x4096_S1x4096x64_S1x512x64_2_1_1_2_0_0_wf : DotDims.WF S1x512x4096 S1x4096x64 S1x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S4x4096x64.size a
  hwx0_0 : ∀ i : grid0.Coords, EltTy.bits .f32 = 32 ∨ (Rect.block (s := S4x4096x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .f32 = 32 ∨ (Rect.block (s := S4x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S4x4096x64.size a
  hwx0_2 : ∀ i : grid0.Coords, EltTy.bits .f32 = 32 ∨ (Rect.block (s := S4x4096x64) S1x512x64.size (cc0_transform_2 i) (hinb0_2 i)).WholeWords (EltTy.packing .f32)

variable [Facts₀]

def dot_S1x512x64_S1x4096x64_S1x512x4096_2_2_1_1_0_0 : DotDims S1x512x64 S1x4096x64 S1x512x4096 where
  lhsContracting := [2]
  rhsContracting := [2]
  lhsNonContracting := [1]
  rhsNonContracting := [1]
  lhsBatch := [0]
  rhsBatch := [0]
  wf := dot_S1x512x64_S1x4096x64_S1x512x4096_2_2_1_1_0_0_wf
def dot_S1x512x4096_S1x4096x64_S1x512x64_2_1_1_2_0_0 : DotDims S1x512x4096 S1x4096x64 S1x512x64 where
  lhsContracting := [2]
  rhsContracting := [1]
  lhsNonContracting := [1]
  rhsNonContracting := [2]
  lhsBatch := [0]
  rhsBatch := [0]
  wf := dot_S1x512x4096_S1x4096x64_S1x512x64_2_1_1_2_0_0_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x4096, .f32⟩
  | .hbm, ⟨3, _⟩ => ⟨S_, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x4096, .f32⟩
  | .hbm, ⟨8, _⟩ => ⟨S4x4096x1, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.RowAttention.lean ====
/-
  One query row against a table of key/value rows, on the extended reals.

  For a query row `qr : Fin D → EReal` and a table `kv : Fin K → Fin D → EReal` (the same rows serve as keys and as
  values) the score of key row `k` is the inner product `∑ d, qr d * kv k d`; the row's top score is the maximum of
  the scores (from `⊥`); the weight of row `k` is `exp (score k - top)`; the normaliser is the sum of the weights.
  Softmax attention at output column `d` can then be arranged in two ways:

    * `divAfter`:  `(∑ k, weight k * kv k d) / normaliser`   — one division, after the weighted sum;
    * `divBefore`: `∑ k, (weight k / normaliser) * kv k d`   — every weight normalised first.

  On the extended reals the two differ in general (a product does not distribute over a sum at the infinities), but
  when every entry of the row and of the table is a real number they agree: every score is then real, the top score
  of a non-empty table is real, every weight is a positive real, the normaliser is a positive real `L`, dividing by
  it is multiplying by the real `1 / L`, and the identity is `(∑ k, w k * v k) * c = ∑ k, (w k * c) * v k` in `ℝ`.
-/
import Idealize.ShloMosaic.PureOps.Ideal
import Mathlib.Data.Finset.Fold

noncomputable section

namespace Cert.RowAttention

open Idealize.ShloMosaic

variable {K D : Nat}

/-- The score of the query row against key row `k`: their inner product. -/
def score (qr : Fin D → EReal) (kv : Fin K → Fin D → EReal) (k : Fin K) : EReal :=
  ∑ d : Fin D, qr d * kv k d

/-- The row's top score: the maximum of its scores, from `⊥`. -/
def top (qr : Fin D → EReal) (kv : Fin K → Fin D → EReal) : EReal :=
  (Finset.univ : Finset (Fin K)).fold max ⊥ (score qr kv)

/-- The unnormalised softmax weight of key row `k`. -/
def weight (qr : Fin D → EReal) (kv : Fin K → Fin D → EReal) (k : Fin K) : EReal :=
  Ideal.exp (score qr kv k - top qr kv)

/-- The normaliser: the sum of the weights. -/
def normaliser (qr : Fin D → EReal) (kv : Fin K → Fin D → EReal) : EReal :=
  ∑ k : Fin K, weight qr kv k

/-- The weighted sum of the value rows first, ONE division after it. -/
def divAfter (qr : Fin D → EReal) (kv : Fin K → Fin D → EReal) (d : Fin D) : EReal :=
  Ideal.div (∑ k : Fin K, weight qr kv k * kv k d) (normaliser qr kv)

/-- Every weight divided by the normaliser first, the weighted sum of the value rows after. -/
def divBefore (qr : Fin D → EReal) (kv : Fin K → Fin D → EReal) (d : Fin D) : EReal :=
  ∑ k : Fin K, Ideal.div (weight qr kv k) (normaliser qr kv) * kv k d

/-- A finite sum of reals, each read as an extended real, is the real sum read as an extended real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum, from `⊥`, of a non-empty finite family of reals is a real. -/
theorem fold_max_real (hK : 0 < K) (f : Fin K → ℝ) :
    ∃ M : ℝ, (Finset.univ : Finset (Fin K)).fold max (⊥ : EReal) (fun k => (f k : EReal)) = (M : EReal) := by
  have hlt : (Finset.univ : Finset (Fin K)).fold max (⊥ : EReal) (fun k => (f k : EReal)) < ⊤ :=
    (Finset.fold_max_lt _).2 ⟨bot_lt_top, fun k _ => EReal.coe_lt_top _⟩
  have hgt : ⊥ < (Finset.univ : Finset (Fin K)).fold max (⊥ : EReal) (fun k => (f k : EReal)) :=
    (Finset.lt_fold_max _).2 (Or.inr ⟨⟨0, hK⟩, Finset.mem_univ _, EReal.bot_lt_coe _⟩)
  refine ⟨((Finset.univ : Finset (Fin K)).fold max (⊥ : EReal) (fun k => (f k : EReal))).toReal, ?_⟩
  exact (EReal.coe_toReal hlt.ne hgt.ne').symm

/-- THE LAW. For a row and a non-empty table of REAL entries the two arrangements agree, column by column. -/
theorem divBefore_eq_divAfter (hK : 0 < K) (qr : Fin D → EReal) (kv : Fin K → Fin D → EReal)
    (hq : ∀ d, ∃ r : ℝ, qr d = (r : EReal)) (hv : ∀ k d, ∃ r : ℝ, kv k d = (r : EReal)) (d : Fin D) :
    divBefore qr kv d = divAfter qr kv d := by
  choose q hq using hq
  choose v hv using hv
  -- every score is real
  have hs : ∀ k, score qr kv k = ((∑ d : Fin D, q d * v k d : ℝ) : EReal) := fun k => by
    unfold score
    rw [← coe_sum]
    exact Finset.sum_congr rfl fun d _ => by rw [hq d, hv k d, EReal.coe_mul]
  -- so is the top score
  obtain ⟨M, hM⟩ := fold_max_real hK fun k => ∑ d : Fin D, q d * v k d
  have htop : top qr kv = (M : EReal) := by
    unfold top
    rw [show score qr kv = fun k => ((∑ d : Fin D, q d * v k d : ℝ) : EReal) from funext hs]
    exact hM
  -- every weight is a positive real
  have hw : ∀ k, weight qr kv k = ((Real.exp ((∑ d : Fin D, q d * v k d) - M) : ℝ) : EReal) := fun k => by
    unfold weight
    rw [hs k, htop, ← EReal.coe_sub]
    rfl
  -- the normaliser is a positive real
  have hL : normaliser qr kv = ((∑ k : Fin K, Real.exp ((∑ d : Fin D, q d * v k d) - M) : ℝ) : EReal) := by
    unfold normaliser
    rw [← coe_sum]
    exact Finset.sum_congr rfl fun k _ => hw k
  have hpos : (0 : ℝ) < ∑ k : Fin K, Real.exp ((∑ d : Fin D, q d * v k d) - M) :=
    Finset.sum_pos (fun k _ => Real.exp_pos _) ⟨⟨0, hK⟩, Finset.mem_univ _⟩
  unfold divBefore divAfter
  rw [hL, Ideal.div_coe hpos.ne']
  simp only [Ideal.div_coe hpos.ne', hw, hv, ← EReal.coe_mul]
  rw [coe_sum, coe_sum, ← EReal.coe_mul, Finset.sum_mul]
  exact congrArg _ (Finset.sum_congr rfl fun k _ => by ring)

end Cert.RowAttention

end
-- ==== Proof.Attention.lean ====
/-
  Softmax attention of a stack of query rows against a stack of key/value tables, array by array.

  `q : [B, Q, 64]` holds `Q` query rows for each of `B` batches and `v : [B, 4096, 64]` one table of 4096 rows per
  batch, which serves both as keys and as values. The output at `(b, i, d)` is the row attention
  (Proof/RowAttention.lean) of query row `(b, i)` against batch `b`'s table, at column `d` — in either of the two
  arrangements, which agree when every entry of `q` and `v` is a real number.
-/
import proofs.«411765_j86629490360750_3_alg».proof.Proof.RowAttention
import Idealize.ShloMosaic.Lib.ValueIdx

noncomputable section

namespace Cert.Attention

open Idealize.ShloMosaic Idealize.ShloMosaic.ValueIdx Cert.RowAttention

variable {B Q : Nat}

/-- Query row `(b, i)`. -/
abbrev qrow (q : (⟨3, ![B, Q, 64]⟩ : Shape).Idx → EReal) (b : Fin B) (i : Fin Q) : Fin 64 → EReal :=
  fun d => q (ix3 b i d)

/-- Batch `b`'s table of key/value rows. -/
abbrev table (v : (⟨3, ![B, 4096, 64]⟩ : Shape).Idx → EReal) (b : Fin B) : Fin 4096 → Fin 64 → EReal :=
  fun k d => v (ix3 b k d)

/-- Attention with one division after the weighted sum of the value rows. -/
def attnAfter (q : (⟨3, ![B, Q, 64]⟩ : Shape).Idx → EReal) (v : (⟨3, ![B, 4096, 64]⟩ : Shape).Idx → EReal) :
    (⟨3, ![B, Q, 64]⟩ : Shape).Idx → EReal :=
  fun j => divAfter (qrow q (j 0) (j 1)) (table v (j 0)) (j 2)

/-- Attention with every weight normalised before the weighted sum. -/
def attnBefore (q : (⟨3, ![B, Q, 64]⟩ : Shape).Idx → EReal) (v : (⟨3, ![B, 4096, 64]⟩ : Shape).Idx → EReal) :
    (⟨3, ![B, Q, 64]⟩ : Shape).Idx → EReal :=
  fun j => divBefore (qrow q (j 0) (j 1)) (table v (j 0)) (j 2)

theorem attnAfter_ix3 (q : (⟨3, ![B, Q, 64]⟩ : Shape).Idx → EReal) (v : (⟨3, ![B, 4096, 64]⟩ : Shape).Idx → EReal)
    (b : Fin B) (i : Fin Q) (d : Fin 64) : attnAfter q v (ix3 b i d) = divAfter (qrow q b i) (table v b) d := rfl

theorem attnBefore_ix3 (q : (⟨3, ![B, Q, 64]⟩ : Shape).Idx → EReal) (v : (⟨3, ![B, 4096, 64]⟩ : Shape).Idx → EReal)
    (b : Fin B) (i : Fin Q) (d : Fin 64) : attnBefore q v (ix3 b i d) = divBefore (qrow q b i) (table v b) d := rfl

/-- LOCALITY. The output at an index depends only on that index's query row and on its batch's table: two pairs of
    arrays, of any extents, that agree on those give the same value there. -/
theorem attnAfter_congr {B' Q' : Nat}
    (q : (⟨3, ![B, Q, 64]⟩ : Shape).Idx → EReal) (v : (⟨3, ![B, 4096, 64]⟩ : Shape).Idx → EReal)
    (q' : (⟨3, ![B', Q', 64]⟩ : Shape).Idx → EReal) (v' : (⟨3, ![B', 4096, 64]⟩ : Shape).Idx → EReal)
    (j : (⟨3, ![B, Q, 64]⟩ : Shape).Idx) (j' : (⟨3, ![B', Q', 64]⟩ : Shape).Idx)
    (hq : ∀ d : Fin 64, q (ix3 (j 0) (j 1) d) = q' (ix3 (j' 0) (j' 1) d))
    (hv : ∀ (k : Fin 4096) (d : Fin 64), v (ix3 (j 0) k d) = v' (ix3 (j' 0) k d))
    (hd : (j 2).val = (j' 2).val) :
    attnAfter q v j = attnAfter q' v' j' := by
  show divAfter (qrow q (j 0) (j 1)) (table v (j 0)) (j 2) = divAfter (qrow q' (j' 0) (j' 1)) (table v' (j' 0)) (j' 2)
  rw [show qrow q (j 0) (j 1) = qrow q' (j' 0) (j' 1) from funext hq,
    show table v (j 0) = table v' (j' 0) from funext fun k => funext (hv k),
    show (j 2 : Fin 64) = j' 2 from Fin.ext hd]

/-- The f32 pattern of minus infinity denotes the bottom of the extended reals: the value both programs start a row's
    maximum from. -/
theorem negInf_f32 : Ideal.ofBits .f32 0xFF800000#32 = (⊥ : EReal) := by
  simp [Ideal.ofBits, Ideal.ieee]

/-- On arrays of real entries the two arrangements are one array. -/
theorem attnBefore_eq_attnAfter (q : (⟨3, ![B, Q, 64]⟩ : Shape).Idx → EReal) (v : (⟨3, ![B, 4096, 64]⟩ : Shape).Idx → EReal)
    (hq : ∀ j, ∃ r : ℝ, q j = (r : EReal)) (hv : ∀ j, ∃ r : ℝ, v j = (r : EReal)) :
    attnBefore q v = attnAfter q v :=
  funext fun j => divBefore_eq_divAfter (by decide) _ _ (fun d => hq _) (fun k d => hv _) (j 2)

end Cert.Attention

end
-- ==== Proof.KernelPayload.lean ====
/-
  What the kernel body stores for one block of 512 query rows: softmax attention with ONE division after the
  weighted sum of the value rows.

  The body holds a block `x0 : [1, 512, 64]` of query rows and the batch's whole table `x1 : [1, 4096, 64]`. Its stages,
  each read at a row `r` of the block:
    * the first product at `(0, r, k)` is the score of query row `r` against key row `k` (a change of float format is
      the identity on the extended reals, so the narrowed operands are the operands);
    * the maximum over the last axis, from minus infinity, is the row's top score, kept as a column and broadcast back;
    * the exponential of the difference is the weight; its sum over the last axis, from zero, is the normaliser;
    * the second product at `(0, r, d)` is the sum of the weights against column `d` of the value rows;
    * the quotient by the normaliser's column, broadcast along the row, is the stored value.
-/
import proofs.«411765_j86629490360750_3_alg».proof.Proof.Gen.KernelIdeal.Skeleton
import proofs.«411765_j86629490360750_3_alg».proof.Proof.Attention
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx Cert.RowAttention Cert.Attention

/-! ## The stages of the body, named -/

/-- The scores of the block's rows against the table's rows. -/
def scores (x0 : Vec Ideal S1x512x64 .f32) (x1 : Vec Ideal S1x4096x64 .f32) : FVec Ideal S1x512x4096 .f32 :=
  matmul dot_S1x512x64_S1x4096x64_S1x512x4096_2_2_1_1_0_0 none (truncf .bf16 x0 bitsLt_bf16_f32) (truncf .bf16 x1 bitsLt_bf16_f32)
    (constant S1x512x4096 .f32 0x00000000#32)

/-- Each row's maximum, from minus infinity. -/
def rowMax (s : FVec Ideal S1x512x4096 .f32) : FVec Ideal S1x512 .f32 :=
  multiReduction .maximumf [2] S1x512 s 0xFF800000#32 reduces_S1x512x4096_S1x512 (.inl rfl) rfl

/-- The exponentials of the scores less their row's maximum. -/
def weights (s : FVec Ideal S1x512x4096 .f32) : FVec Ideal S1x512x4096 .f32 :=
  exp (subf s (broadcastTo S1x512x4096 (shapeCast S1x512x1 (rowMax s) shapeCasts_S1x512_S1x512x1)
    broadcasts_S1x512x1_S1x512x4096))

/-- Each row's sum, from zero. -/
def rowSum (p : FVec Ideal S1x512x4096 .f32) : FVec Ideal S1x512 .f32 :=
  multiReduction .add [2] S1x512 p 0x00000000#32 reduces_S1x512x4096_S1x512 (.inl rfl) rfl

/-- The weights against the table's columns. -/
def weighted (p : FVec Ideal S1x512x4096 .f32) (x1 : Vec Ideal S1x4096x64 .f32) : FVec Ideal S1x512x64 .f32 :=
  matmul dot_S1x512x4096_S1x4096x64_S1x512x64_2_1_1_2_0_0 none (truncf .bf16 p bitsLt_bf16_f32) (truncf .bf16 x1 bitsLt_bf16_f32)
    (constant S1x512x64 .f32 0x00000000#32)

/-- The body's stored value is the weighted sums divided by the rows' normalisers. -/
theorem pay_eq (x0 : Vec Ideal S1x512x64 .f32) (x1 : Vec Ideal S1x4096x64 .f32) :
    k0_pay1 (F := Ideal) x0 x1
      = divf (weighted (weights (scores x0 x1)) x1)
          (broadcastTo S1x512x64 (shapeCast S1x512x1 (rowSum (weights (scores x0 x1))) shapeCasts_S1x512_S1x512x1)
            broadcasts_S1x512x1_S1x512x64) := rfl

/-! ## A per-row value kept as a column and broadcast along the row -/

/-- A `[1, 512]` vector kept as a `[1, 512, 1]` column reads, at `(0, r, 0)`, the vector at `(0, r)`. -/
theorem column_apply {α : Type} (m : S1x512.Idx → α) (r : Fin 512) :
    shapeCast S1x512x1 m shapeCasts_S1x512_S1x512x1 (ix3 (0 : Fin 1) r (0 : Fin 1)) = m (ix2 (0 : Fin 1) r) :=
  shapeCast_apply m shapeCasts_S1x512_S1x512x1 _ _ (by
    rw [Shape.rowMajor_val_two, Shape.rowMajor_val_three]
    show 0 * 512 + r.val = (0 * 512 + r.val) * 1 + 0
    omega)

/-- The column broadcast along a row of 4096 reads, at `(0, r, k)`, the column at row `r`. -/
theorem along4096_apply {α : Type} (col : S1x512x1.Idx → α) (r : Fin 512) (k : Fin 4096) :
    broadcastTo S1x512x4096 col broadcasts_S1x512x1_S1x512x4096 (ix3 (0 : Fin 1) r k)
      = col (ix3 (0 : Fin 1) r (0 : Fin 1)) :=
  broadcastTo_apply col broadcasts_S1x512x1_S1x512x4096 _ _ (fun a => match a with
    | ⟨0, _⟩ => by show (0 : Nat) = if (1 : Nat) = 1 then 0 else _; rw [if_pos rfl]
    | ⟨1, _⟩ => by show r.val = if (512 : Nat) = 1 then 0 else r.val; rw [if_neg (by decide)]
    | ⟨2, _⟩ => by show (0 : Nat) = if (1 : Nat) = 1 then 0 else _; rw [if_pos rfl])

/-- The column broadcast along a row of 64 reads, at `(0, r, d)`, the column at row `r`. -/
theorem along64_apply {α : Type} (col : S1x512x1.Idx → α) (r : Fin 512) (d : Fin 64) :
    broadcastTo S1x512x64 col broadcasts_S1x512x1_S1x512x64 (ix3 (0 : Fin 1) r d)
      = col (ix3 (0 : Fin 1) r (0 : Fin 1)) :=
  broadcastTo_apply col broadcasts_S1x512x1_S1x512x64 _ _ (fun a => match a with
    | ⟨0, _⟩ => by show (0 : Nat) = if (1 : Nat) = 1 then 0 else _; rw [if_pos rfl]
    | ⟨1, _⟩ => by show r.val = if (512 : Nat) = 1 then 0 else r.val; rw [if_neg (by decide)]
    | ⟨2, _⟩ => by show (0 : Nat) = if (1 : Nat) = 1 then 0 else _; rw [if_pos rfl])

/-! ## The two products' operand indices -/

theorem lhs_qk_0 (i : S1x512x4096.Idx) (q : dot_S1x512x64_S1x4096x64_S1x512x4096_2_2_1_1_0_0.contr.Idx) :
    (dot_S1x512x64_S1x4096x64_S1x512x4096_2_2_1_1_0_0.lhsIdx i q 0).val = (i 0).val := by
  unfold DotDims.lhsIdx
  rw [dif_pos (show (0 : Fin S1x512x64.rank) ∈ dot_S1x512x64_S1x4096x64_S1x512x4096_2_2_1_1_0_0.lhsBatch by decide)]
  rfl
theorem lhs_qk_1 (i : S1x512x4096.Idx) (q : dot_S1x512x64_S1x4096x64_S1x512x4096_2_2_1_1_0_0.contr.Idx) :
    (dot_S1x512x64_S1x4096x64_S1x512x4096_2_2_1_1_0_0.lhsIdx i q 1).val = (i 1).val := by
  unfold DotDims.lhsIdx
  rw [dif_neg (show ¬(1 : Fin S1x512x64.rank) ∈ dot_S1x512x64_S1x4096x64_S1x512x4096_2_2_1_1_0_0.lhsBatch by decide), dif_pos (show (1 : Fin S1x512x64.rank) ∈ dot_S1x512x64_S1x4096x64_S1x512x4096_2_2_1_1_0_0.lhsNonContracting by decide)]
  rfl
theorem lhs_qk_2 (i : S1x512x4096.Idx) (q : dot_S1x512x64_S1x4096x64_S1x512x4096_2_2_1_1_0_0.contr.Idx) :
    (dot_S1x512x64_S1x4096x64_S1x512x4096_2_2_1_1_0_0.lhsIdx i q 2).val = (q ⟨0, by decide⟩).val :=
  dot_S1x512x64_S1x4096x64_S1x512x4096_2_2_1_1_0_0.lhsIdx_val_of_single rfl i q
theorem rhs_qk_0 (i : S1x512x4096.Idx) (q : dot_S1x512x64_S1x4096x64_S1x512x4096_2_2_1_1_0_0.contr.Idx) :
    (dot_S1x512x64_S1x4096x64_S1x512x4096_2_2_1_1_0_0.rhsIdx i q 0).val = (i 0).val := by
  unfold DotDims.rhsIdx
  rw [dif_pos (show (0 : Fin S1x4096x64.rank) ∈ dot_S1x512x64_S1x4096x64_S1x512x4096_2_2_1_1_0_0.rhsBatch by decide)]
  rfl
theorem rhs_qk_1 (i : S1x512x4096.Idx) (q : dot_S1x512x64_S1x4096x64_S1x512x4096_2_2_1_1_0_0.contr.Idx) :
    (dot_S1x512x64_S1x4096x64_S1x512x4096_2_2_1_1_0_0.rhsIdx i q 1).val = (i 2).val := by
  unfold DotDims.rhsIdx
  rw [dif_neg (show ¬(1 : Fin S1x4096x64.rank) ∈ dot_S1x512x64_S1x4096x64_S1x512x4096_2_2_1_1_0_0.rhsBatch by decide), dif_pos (show (1 : Fin S1x4096x64.rank) ∈ dot_S1x512x64_S1x4096x64_S1x512x4096_2_2_1_1_0_0.rhsNonContracting by decide)]
  rfl
theorem rhs_qk_2 (i : S1x512x4096.Idx) (q : dot_S1x512x64_S1x4096x64_S1x512x4096_2_2_1_1_0_0.contr.Idx) :
    (dot_S1x512x64_S1x4096x64_S1x512x4096_2_2_1_1_0_0.rhsIdx i q 2).val = (q ⟨0, by decide⟩).val :=
  dot_S1x512x64_S1x4096x64_S1x512x4096_2_2_1_1_0_0.rhsIdx_val_of_single rfl i q

theorem lhs_pv_0 (i : S1x512x64.Idx) (q : dot_S1x512x4096_S1x4096x64_S1x512x64_2_1_1_2_0_0.contr.Idx) :
    (dot_S1x512x4096_S1x4096x64_S1x512x64_2_1_1_2_0_0.lhsIdx i q 0).val = (i 0).val := by
  unfold DotDims.lhsIdx
  rw [dif_pos (show (0 : Fin S1x512x4096.rank) ∈ dot_S1x512x4096_S1x4096x64_S1x512x64_2_1_1_2_0_0.lhsBatch by decide)]
  rfl
theorem lhs_pv_1 (i : S1x512x64.Idx) (q : dot_S1x512x4096_S1x4096x64_S1x512x64_2_1_1_2_0_0.contr.Idx) :
    (dot_S1x512x4096_S1x4096x64_S1x512x64_2_1_1_2_0_0.lhsIdx i q 1).val = (i 1).val := by
  unfold DotDims.lhsIdx
  rw [dif_neg (show ¬(1 : Fin S1x512x4096.rank) ∈ dot_S1x512x4096_S1x4096x64_S1x512x64_2_1_1_2_0_0.lhsBatch by decide), dif_pos (show (1 : Fin S1x512x4096.rank) ∈ dot_S1x512x4096_S1x4096x64_S1x512x64_2_1_1_2_0_0.lhsNonContracting by decide)]
  rfl
theorem lhs_pv_2 (i : S1x512x64.Idx) (q : dot_S1x512x4096_S1x4096x64_S1x512x64_2_1_1_2_0_0.contr.Idx) :
    (dot_S1x512x4096_S1x4096x64_S1x512x64_2_1_1_2_0_0.lhsIdx i q 2).val = (q ⟨0, by decide⟩).val :=
  dot_S1x512x4096_S1x4096x64_S1x512x64_2_1_1_2_0_0.lhsIdx_val_of_single rfl i q
theorem rhs_pv_0 (i : S1x512x64.Idx) (q : dot_S1x512x4096_S1x4096x64_S1x512x64_2_1_1_2_0_0.contr.Idx) :
    (dot_S1x512x4096_S1x4096x64_S1x512x64_2_1_1_2_0_0.rhsIdx i q 0).val = (i 0).val := by
  unfold DotDims.rhsIdx
  rw [dif_pos (show (0 : Fin S1x4096x64.rank) ∈ dot_S1x512x4096_S1x4096x64_S1x512x64_2_1_1_2_0_0.rhsBatch by decide)]
  rfl
theorem rhs_pv_1 (i : S1x512x64.Idx) (q : dot_S1x512x4096_S1x4096x64_S1x512x64_2_1_1_2_0_0.contr.Idx) :
    (dot_S1x512x4096_S1x4096x64_S1x512x64_2_1_1_2_0_0.rhsIdx i q 1).val = (q ⟨0, by decide⟩).val :=
  dot_S1x512x4096_S1x4096x64_S1x512x64_2_1_1_2_0_0.rhsIdx_val_of_single rfl i q
theorem rhs_pv_2 (i : S1x512x64.Idx) (q : dot_S1x512x4096_S1x4096x64_S1x512x64_2_1_1_2_0_0.contr.Idx) :
    (dot_S1x512x4096_S1x4096x64_S1x512x64_2_1_1_2_0_0.rhsIdx i q 2).val = (i 2).val := by
  unfold DotDims.rhsIdx
  rw [dif_neg (show ¬(2 : Fin S1x4096x64.rank) ∈ dot_S1x512x4096_S1x4096x64_S1x512x64_2_1_1_2_0_0.rhsBatch by decide), dif_pos (show (2 : Fin S1x4096x64.rank) ∈ dot_S1x512x4096_S1x4096x64_S1x512x64_2_1_1_2_0_0.rhsNonContracting by decide)]
  rfl

/-! ## The stages read at a row -/

/-- The first product at `(0, r, k)`: the score of query row `r` against key row `k`. -/
theorem scores_apply (x0 : Vec Ideal S1x512x64 .f32) (x1 : Vec Ideal S1x4096x64 .f32) (r : Fin 512) (k : Fin 4096) :
    scores x0 x1 (ix3 (0 : Fin 1) r k) = score (qrow (B := 1) (Q := 512) x0 0 r) (table (B := 1) x1 0) k := by
  unfold scores
  simp only [matmul]
  rw [Ideal.matmul_constant_zero_apply, ← Equiv.sum_comp (contrEquiv1 dot_S1x512x64_S1x4096x64_S1x512x4096_2_2_1_1_0_0 64 rfl rfl).symm]
  unfold score
  refine Finset.sum_congr rfl fun d _ => ?_
  have hk := contrEquiv1_symm_val dot_S1x512x64_S1x4096x64_S1x512x4096_2_2_1_1_0_0 64 rfl rfl d
  have el : dot_S1x512x64_S1x4096x64_S1x512x4096_2_2_1_1_0_0.lhsIdx (ix3 (0 : Fin 1) r k) ((contrEquiv1 dot_S1x512x64_S1x4096x64_S1x512x4096_2_2_1_1_0_0 64 rfl rfl).symm d) = ix3 (0 : Fin 1) r d := funext fun a => Fin.ext (by
    match a with
    | ⟨0, _⟩ => exact lhs_qk_0 _ _
    | ⟨1, _⟩ => exact lhs_qk_1 _ _
    | ⟨2, _⟩ => exact (lhs_qk_2 _ _).trans hk)
  have er : dot_S1x512x64_S1x4096x64_S1x512x4096_2_2_1_1_0_0.rhsIdx (ix3 (0 : Fin 1) r k) ((contrEquiv1 dot_S1x512x64_S1x4096x64_S1x512x4096_2_2_1_1_0_0 64 rfl rfl).symm d) = ix3 (0 : Fin 1) k d := funext fun a => Fin.ext (by
    match a with
    | ⟨0, _⟩ => exact rhs_qk_0 _ _
    | ⟨1, _⟩ => exact rhs_qk_1 _ _
    | ⟨2, _⟩ => exact (rhs_qk_2 _ _).trans hk)
  rw [el, er]
  rfl

/-- A row's maximum at `(0, r)`: the maximum, from the bottom, of the row's entries. -/
theorem rowMax_apply (s : FVec Ideal S1x512x4096 .f32) (r : Fin 512) :
    rowMax s (ix2 (0 : Fin 1) r)
      = (Finset.univ : Finset (Fin 4096)).fold max (⊥ : EReal) (fun k => s (ix3 (0 : Fin 1) r k)) := by
  unfold rowMax
  refine (Ideal.multiReduction_maximumf_single s 0xFF800000#32 reduces_S1x512x4096_S1x512 (.inl rfl) rfl
    (ix2 (0 : Fin 1) r)).trans ?_
  show Finset.fold max (Ideal.ofBits .f32 0xFF800000#32) _ _ = _
  rw [negInf_f32]
  refine Finset.fold_congr fun k _ => ?_
  exact congrArg s (funext fun a => Fin.ext (by match a with | ⟨0, _⟩ => rfl | ⟨1, _⟩ => rfl | ⟨2, _⟩ => rfl))

/-- A row's sum at `(0, r)`: the sum of the row's entries. -/
theorem rowSum_apply (p : FVec Ideal S1x512x4096 .f32) (r : Fin 512) :
    rowSum p (ix2 (0 : Fin 1) r) = ∑ k : Fin 4096, p (ix3 (0 : Fin 1) r k) := by
  unfold rowSum
  refine (Ideal.multiReduction_add_single p 0x00000000#32 reduces_S1x512x4096_S1x512 (.inl rfl) rfl
    (ix2 (0 : Fin 1) r)).trans ?_
  refine Finset.sum_congr rfl fun k _ => ?_
  exact congrArg p (funext fun a => Fin.ext (by match a with | ⟨0, _⟩ => rfl | ⟨1, _⟩ => rfl | ⟨2, _⟩ => rfl))

/-- The weight at `(0, r, k)`: the exponential of the entry less its row's maximum. -/
theorem weights_apply (s : FVec Ideal S1x512x4096 .f32) (r : Fin 512) (k : Fin 4096) :
    weights s (ix3 (0 : Fin 1) r k)
      = Ideal.exp (s (ix3 (0 : Fin 1) r k)
          - (Finset.univ : Finset (Fin 4096)).fold max (⊥ : EReal) (fun k' => s (ix3 (0 : Fin 1) r k'))) := by
  unfold weights
  show Ideal.exp (s (ix3 (0 : Fin 1) r k) - broadcastTo S1x512x4096 _ broadcasts_S1x512x1_S1x512x4096 (ix3 (0 : Fin 1) r k)) = _
  rw [along4096_apply, column_apply, rowMax_apply]

/-- The second product at `(0, r, d)`: the sum of row `r`'s weights against column `d` of the table's rows. -/
theorem weighted_apply (p : FVec Ideal S1x512x4096 .f32) (x1 : Vec Ideal S1x4096x64 .f32) (r : Fin 512) (d : Fin 64) :
    weighted p x1 (ix3 (0 : Fin 1) r d) = ∑ k : Fin 4096, p (ix3 (0 : Fin 1) r k) * x1 (ix3 (0 : Fin 1) k d) := by
  unfold weighted
  simp only [matmul]
  rw [Ideal.matmul_constant_zero_apply, ← Equiv.sum_comp (contrEquiv1 dot_S1x512x4096_S1x4096x64_S1x512x64_2_1_1_2_0_0 4096 rfl rfl).symm]
  refine Finset.sum_congr rfl fun k _ => ?_
  have hk := contrEquiv1_symm_val dot_S1x512x4096_S1x4096x64_S1x512x64_2_1_1_2_0_0 4096 rfl rfl k
  have el : dot_S1x512x4096_S1x4096x64_S1x512x64_2_1_1_2_0_0.lhsIdx (ix3 (0 : Fin 1) r d) ((contrEquiv1 dot_S1x512x4096_S1x4096x64_S1x512x64_2_1_1_2_0_0 4096 rfl rfl).symm k) = ix3 (0 : Fin 1) r k := funext fun a => Fin.ext (by
    match a with
    | ⟨0, _⟩ => exact lhs_pv_0 _ _
    | ⟨1, _⟩ => exact lhs_pv_1 _ _
    | ⟨2, _⟩ => exact (lhs_pv_2 _ _).trans hk)
  have er : dot_S1x512x4096_S1x4096x64_S1x512x64_2_1_1_2_0_0.rhsIdx (ix3 (0 : Fin 1) r d) ((contrEquiv1 dot_S1x512x4096_S1x4096x64_S1x512x64_2_1_1_2_0_0 4096 rfl rfl).symm k) = ix3 (0 : Fin 1) k d := funext fun a => Fin.ext (by
    match a with
    | ⟨0, _⟩ => exact rhs_pv_0 _ _
    | ⟨1, _⟩ => exact (rhs_pv_1 _ _).trans hk
    | ⟨2, _⟩ => exact rhs_pv_2 _ _)
  rw [el, er]
  rfl

/-! ## The stored block -/

/-- THE STORED VALUE at `(0, r, d)`: the attention of query row `r` of the block against the table, one division
    after the weighted sum. -/
theorem pay_apply (x0 : Vec Ideal S1x512x64 .f32) (x1 : Vec Ideal S1x4096x64 .f32) (r : Fin 512) (d : Fin 64) :
    k0_pay1 (F := Ideal) x0 x1 (ix3 (0 : Fin 1) r d)
      = divAfter (qrow (B := 1) (Q := 512) x0 0 r) (table (B := 1) x1 0) d := by
  rw [pay_eq]
  show Ideal.div (weighted (weights (scores x0 x1)) x1 (ix3 (0 : Fin 1) r d))
    (broadcastTo S1x512x64 _ broadcasts_S1x512x1_S1x512x64 (ix3 (0 : Fin 1) r d)) = _
  rw [along64_apply, column_apply, rowSum_apply, weighted_apply]
  have hw : ∀ k : Fin 4096, weights (scores x0 x1) (ix3 (0 : Fin 1) r k)
      = weight (qrow (B := 1) (Q := 512) x0 0 r) (table (B := 1) x1 0) k := fun k => by
    rw [weights_apply]
    unfold weight top
    simp only [scores_apply]
  simp only [hw]
  rfl

/-- The stored block, whole: attention of the block's query rows against the table. -/
theorem pay_eq_attnAfter (x0 : Vec Ideal S1x512x64 .f32) (x1 : Vec Ideal S1x4096x64 .f32) :
    k0_pay1 (F := Ideal) x0 x1 = attnAfter (B := 1) (Q := 512) x0 x1 := by
  funext j
  obtain ⟨u, r, d, rfl⟩ : ∃ (u : Fin 1) (r : Fin 512) (d : Fin 64), j = ix3 u r d := ⟨j 0, j 1, j 2, eq_ix3 j⟩
  obtain rfl : u = 0 := Subsingleton.elim _ _
  exact pay_apply x0 x1 r d

end Cert.KernelIdeal.Payload

end
-- ==== Proof.KernelValue.lean ====
/-
  The kernel's result array after the run is softmax attention of the argument arrays, one division after the
  weighted sum.

  Grid point `t = (b, qi)` stages block `(b, qi, 0)` of the queries (512 rows of batch `b`), block `(b, 0, 0)` of the
  table (all 4096 rows of batch `b`) and writes back block `(b, qi, 0)` of the result. What it writes back is the
  attention of its 512 query rows against the staged table (Proof/KernelPayload.lean), which is the restriction to
  that block of the attention of the whole arrays: attention at `(b, i, d)` reads only query row `(b, i)` and batch
  `b`'s table. The 32 result blocks tile the `[4, 4096, 64]` array — row `i` of batch `b` lies in block `(b, i / 512)` —
  so the array ends as the attention of the arguments everywhere.
-/
import proofs.«411765_j86629490360750_3_alg».proof.Proof.Gen.KernelIdeal.Value
import proofs.«411765_j86629490360750_3_alg».proof.Proof.KernelPayload

noncomputable section

namespace Cert.KernelIdeal.RunValue

open Cert.KernelIdeal Cert.KernelIdeal.Gen Cert.KernelIdeal.Payload
open Idealize.ShloMosaic Idealize.ShloMosaic.TcCoe Idealize.SL.Sem Idealize.ShloMosaic.ValueIdx Cert.Attention
open Idealize.ShloMosaic.Pipeline (Dat)

variable (m : (ℓ : Loc nD τ sig) → Buf (Elt Ideal) ℓ) (ρ : Dev nD → PrngReg)

theorem origin : (![0, 0, 0] : Fin 3 → Nat) = fun _ => 0 := funext fun a => by fin_cases a <;> rfl

/-- The result array as a function of the argument arrays. -/
abbrev result (c : Dev nD) : S4x4096x64.Idx → EReal :=
  attnAfter (B := 4) (Q := 4096) (V m c main_arg0) (V m c main_arg1)

/-- The printed index maps over the 32 grid points: the query block moves with the result block, the table block
    follows its batch only, and no block moves along the last axis. -/
theorem index_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0
    ∧ win0_1.index t (2 : Fin 3) = 0
    ∧ win0_2.index t (2 : Fin 3) = 0 :=
  (by decide +kernel : ∀ t : Fin grid0.N, _)

/-- Every block `(b, qi, 0)` of the result is some grid point's. -/
theorem index_onto : ∀ (b : Fin 4) (qi : Fin 8), ∃ t : Fin cfg0.N, win0_2.index t = ![b.val, qi.val, 0] :=
  (by decide +kernel : ∀ (b : Fin 4) (qi : Fin 8), ∃ t : Fin grid0.N, win0_2.index t = ![b.val, qi.val, 0])

/-- WHAT POINT `t` WRITES BACK is block `t` of the attention of the argument arrays. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero origin]
  simp only [View.ld_unit_zero (S := S1x512x64) origin, View.ld_unit_zero (S := S1x4096x64) origin]
  rw [pay_eq_attnAfter]
  obtain ⟨e00, e01, e02, e10, e11, e12, e22⟩ := index_facts t
  funext y
  refine attnAfter_congr (B := 1) (Q := 512) (B' := 4) (Q' := 4096) (iblk m c 0 t) (iblk m c 1 t)
    (V m c main_arg0) (V m c main_arg1) y (((cfg0.win 2).blk t).view.emb y) (fun d => ?_) (fun k d => ?_) ?_
  · show V m c main_arg0 (((cfg0.win 0).blk t).view.emb (ix3 (y 0) (y 1) d)) = _
    refine congrArg (V m c main_arg0) (funext fun a => Fin.ext ?_)
    match a with
    | ⟨0, _⟩ => show win0_0.index t (0 : Fin 3) * 1 + 1 * (y 0).val = win0_2.index t (0 : Fin 3) * 1 + 1 * (y 0).val; omega
    | ⟨1, _⟩ => show win0_0.index t (1 : Fin 3) * 512 + 1 * (y 1).val = win0_2.index t (1 : Fin 3) * 512 + 1 * (y 1).val; omega
    | ⟨2, _⟩ => show win0_0.index t (2 : Fin 3) * 64 + 1 * d.val = d.val; omega
  · show V m c main_arg1 (((cfg0.win 1).blk t).view.emb (ix3 (y 0) k d)) = _
    refine congrArg (V m c main_arg1) (funext fun a => Fin.ext ?_)
    match a with
    | ⟨0, _⟩ => show win0_1.index t (0 : Fin 3) * 1 + 1 * (y 0).val = win0_2.index t (0 : Fin 3) * 1 + 1 * (y 0).val; omega
    | ⟨1, _⟩ => show win0_1.index t (1 : Fin 3) * 4096 + 1 * k.val = k.val; omega
    | ⟨2, _⟩ => show win0_1.index t (2 : Fin 3) * 64 + 1 * d.val = d.val; omega
  · show (y 2).val = win0_2.index t (2 : Fin 3) * 64 + 1 * (y 2).val
    omega

/-- An index of the array is in point `t`'s block iff each coordinate is in the block's range on its axis. -/
theorem mem_block (t : Fin cfg0.N) (i : S4x4096x64.Idx) :
    i ∈ ((cfg0.win 2).blk t).view.set ↔ ∀ a : Fin 3, win0_2.index t a * S1x512x64.size a ≤ (i a).val ∧ (i a).val < win0_2.index t a * S1x512x64.size a + S1x512x64.size a := by
  show i ∈ ((View.whole main_v0).slice (win0_2.rect t)).set ↔ _
  rw [View.set_slice_whole, Rect.mem_set_unit]
  exact Iff.rfl

/-- THE BLOCKS TILE THE ARRAY: row `i` of batch `b` is in the block of point `(b, i / 512)`. -/
theorem covered (i : S4x4096x64.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 64 := (i 2).isLt
  obtain ⟨t, ht⟩ := index_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 64 ≤ (i 2).val ∧ (i 2).val < win0_2.index t (2 : Fin 3) * 64 + 64; omega

/-- THE ARRAY after the run is the attention of the argument arrays as the region finds them. -/
theorem final (c : Dev nD) : (dats m 0 c).arrAt 2 cfg0.N = result m c :=
  (dats m 0 c).arrAt_eq_of_cover 2 (result m c) (fun t _ => flushed_eq m c t) covered

/-- THE RUN: every weakly fair execution of the kernel program ends with the result array at the attention of the
    arguments, and the arguments unchanged. -/
theorem run : θ_run defs (onTc (τ := τ) (main (F := Ideal))) ⟨m, fun _ => 0, ρ⟩ fun r => ∀ c : Dev nD,
      r.2.mem ((c : Thread nD τ).loc main_v0)
        = attnAfter (B := 4) (Q := 4096) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.RunValue

end
-- ==== Proof.RefValue.lean ====
/-
  The reference's result is softmax attention with every weight normalised first.

  Stage by stage, through the generated read-at-an-index lemmas: the first product read at `(b, i, k)` is the score of
  query row `(b, i)` against key row `k` of batch `b`; the maximum over the last axis (from minus infinity, then once
  more against minus infinity) is the row's top score; the exponential of the difference is the weight; the sum over
  the last axis (from zero) is the normaliser; the quotient is the normalised weight; and the second product sums the
  normalised weights against the value rows.
-/
import proofs.«411765_j86629490360750_3_alg».proof.Proof.Gen.ReferenceIdeal.Read
import proofs.«411765_j86629490360750_3_alg».proof.Proof.Attention
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.RowAttention Cert.Attention

variable (x0 x1 : (⟨S4x4096x64, .f32⟩ : BufTy).Contents (Elt Ideal))

/-- The first product at `(b, i, k)`: the score of query row `(b, i)` against key row `k`. -/
theorem score_eq (b : Fin 4) (i k : Fin 4096) :
    val_main_v0 (F := Ideal) x0 x1 (ix3 b i k) = score (qrow x0 b i) (table x1 b) k := by
  rw [val_main_v0_apply]
  unfold score
  refine Finset.sum_congr rfl fun d _ => ?_
  have el : lidx_main_v0 (ix3 b i k) d = ix3 b i d :=
    funext fun a => Fin.ext (by match a with | ⟨0, _⟩ => rfl | ⟨1, _⟩ => rfl | ⟨2, _⟩ => rfl)
  have er : ridx_main_v0 (ix3 b i k) d = ix3 b k d :=
    funext fun a => Fin.ext (by match a with | ⟨0, _⟩ => rfl | ⟨1, _⟩ => rfl | ⟨2, _⟩ => rfl)
  rw [el, er]

/-- The row maximum at `(b, i)`: the top score of query row `(b, i)`. -/
theorem top_eq (b : Fin 4) (i : Fin 4096) :
    val_main_v3 (F := Ideal) x0 x1 (ix2 b i) = top (qrow x0 b i) (table x1 b) := by
  rw [val_main_v3_apply, val_main_v2_apply, val_main_cst_0_apply]
  unfold val_main_v1
  rw [Host.reduce_eq_fold_single FloatOps.maximumf _ _ reducesTo_S4x4096x4096_S4x4096_d2 (by decide) h_S_ (ix2 b i),
    val_main_cst_apply]
  show max (Ideal.ofBits .f32 0xFF800000#32) (Finset.fold max (Ideal.ofBits .f32 0xFF800000#32) _ _) = _
  rw [negInf_f32, max_eq_right bot_le]
  unfold top
  refine Finset.fold_congr fun k _ => ?_
  exact (congrArg (val_main_v0 (F := Ideal) x0 x1)
    (funext fun a => Fin.ext (by match a with | ⟨0, _⟩ => rfl | ⟨1, _⟩ => rfl | ⟨2, _⟩ => rfl))).trans (score_eq x0 x1 b i k)

/-- The exponential at `(b, i, k)`: the weight of key row `k` for query row `(b, i)`. -/
theorem weight_eq (b : Fin 4) (i k : Fin 4096) :
    val_main_v7 (F := Ideal) x0 x1 (ix3 b i k) = weight (qrow x0 b i) (table x1 b) k := by
  rw [val_main_v7_apply, val_main_v6_apply, val_main_v5_apply, val_main_v4_apply,
    show idx_main_v4 (idx_main_v5 (ix3 b i k)) = ix2 b i from
      funext fun a => Fin.ext (by match a with | ⟨0, _⟩ => rfl | ⟨1, _⟩ => rfl),
    top_eq, score_eq]
  rfl

/-- The sum of the exponentials at `(b, i)`: the normaliser of query row `(b, i)`. -/
theorem normaliser_eq (b : Fin 4) (i : Fin 4096) :
    val_main_v8 (F := Ideal) x0 x1 (ix2 b i) = normaliser (qrow x0 b i) (table x1 b) := by
  rw [val_main_v8_apply, val_main_cst_1_apply]
  show Ideal.ofBits .f32 0x00000000#32 + _ = _
  rw [Ideal.ofBits_zero_f32, zero_add]
  unfold normaliser
  refine Finset.sum_congr rfl fun k _ => ?_
  exact (congrArg (val_main_v7 (F := Ideal) x0 x1)
    (funext fun a => Fin.ext (by match a with | ⟨0, _⟩ => rfl | ⟨1, _⟩ => rfl | ⟨2, _⟩ => rfl))).trans (weight_eq x0 x1 b i k)

/-- THE REFERENCE'S RESULT: attention with every weight normalised before the weighted sum of the value rows. -/
theorem result_eq : val_main_v12 (F := Ideal) x0 x1 = attnBefore (B := 4) (Q := 4096) x0 x1 := by
  funext j
  obtain ⟨b, i, d, rfl⟩ : ∃ (b : Fin 4) (i : Fin 4096) (d : Fin 64), j = ix3 b i d := ⟨j 0, j 1, j 2, eq_ix3 j⟩
  rw [val_main_v12_apply, attnBefore_ix3]
  unfold divBefore
  refine Finset.sum_congr rfl fun k _ => ?_
  have el : lidx_main_v12 (ix3 b i d) k = ix3 b i k :=
    funext fun a => Fin.ext (by match a with | ⟨0, _⟩ => rfl | ⟨1, _⟩ => rfl | ⟨2, _⟩ => rfl)
  have er : ridx_main_v12 (ix3 b i d) k = ix3 b k d :=
    funext fun a => Fin.ext (by match a with | ⟨0, _⟩ => rfl | ⟨1, _⟩ => rfl | ⟨2, _⟩ => rfl)
  rw [el, er, val_main_v11_apply, val_main_v10_apply, val_main_v9_apply,
    show idx_main_v9 (idx_main_v10 (ix3 b i k)) = ix2 b i from
      funext fun a => Fin.ext (by match a with | ⟨0, _⟩ => rfl | ⟨1, _⟩ => rfl),
    weight_eq, normaliser_eq]
  rfl

end Cert.ReferenceIdeal.RefValue

end
-- ==== Proof.Finite.lean ====
/-
  Under the precondition every entry of both argument arrays is a real number.

  The precondition is the conjunction of two `jnp.all`s, one per argument: every entry's absolute value is below
  plus infinity. An `and`-reduction over all axes that comes out 1 had a 1 at every entry; an entry's comparison
  being 1 says `max x (-x) < ⊤` on the extended reals, which excludes both infinities.
-/
import proofs.«411765_j86629490360750_3_alg».proof.Pre_finite_inputs
import proofs.«411765_j86629490360750_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs Cert.Pre_finite_inputs.Gen

instance : Subsingleton S_.Idx := ⟨fun a b => funext fun d => d.elim0⟩

/-- The f32 pattern of plus infinity denotes the top of the extended reals. -/
theorem posInf_f32 : Ideal.ofBits .f32 0x7F800000#32 = (⊤ : EReal) := by
  simp [Ideal.ofBits, Ideal.ieee]

/-- An extended real whose absolute value compares below plus infinity is a real. -/
theorem real_of_abs_lt_top (x : EReal)
    (h : Ideal.cmp .olt (max x (-x)) (Ideal.ofBits .f32 0x7F800000#32) = 1#1) : ∃ r : ℝ, x = (r : EReal) := by
  rw [posInf_f32] at h
  induction x using EReal.rec with
  | bot => simp [Ideal.cmp] at h
  | top => simp [Ideal.cmp] at h
  | coe r => exact ⟨r, rfl⟩

/-- THE PRECONDITION READ BACK: both arrays hold real numbers only. -/
theorem all_real (a0 a1 : FVec Ideal S4x4096x64 .f32) (h : fn (F := Ideal) a0 a1 = fun _ => 1#1) :
    (∀ j, ∃ r : ℝ, a0 j = (r : EReal)) ∧ (∀ j, ∃ r : ℝ, a1 j = (r : EReal)) := by
  have h0 := congrFun h ValueIdx.ix0
  dsimp only [fn] at h0
  obtain ⟨h1, h2⟩ := IntOp.andi_eq_one.1 h0
  exact ⟨fun j => real_of_abs_lt_top (a0 j) (Host.reduce_andi_all _ _ _ _ _ h1 j),
    fun j => real_of_abs_lt_top (a1 j) (Host.reduce_andi_all _ _ _ _ _ h2 j)⟩

end Cert.Finite

end
-- ==== Proof.lean ====
/-
  Softmax attention in which the value rows also serve as keys, `softmax(Q Vᵀ) V` over f32[4, 4096, 64], with no
  scaling of the scores: a kernel on a (4, 8) grid against the jnp reference.

  Each grid point takes 512 query rows of one batch and that batch's whole table of 4096 rows. It forms the scores
  `s = q · vᵀ`, the row maximum `M`, the weights `p = exp (s - M)`, their row sum `L`, the weighted sum `p · v`, and
  stores `(p · v) / L`: ONE division, after the weighted sum. The reference forms the same scores, maximum and weights
  over the whole arrays, normalises every weight first, `p / L`, and then takes the weighted sum `(p / L) · v`.

  On the extended reals a change of float format is the identity, a matrix product is the sum of the products, and
  both row reductions are the plain maximum and sum, so the two programs differ ONLY in where the division stands:
  `(∑ k, p k * v k) / L` against `∑ k, (p k / L) * v k`. That is distributivity, which fails at the infinities, and this is
  where the precondition is used: with every input a real number every score is real, `M` is real (4096 > 0 rows),
  every weight is a positive real, `L` is a positive real, dividing by `L` is multiplying by the real `1 / L`, and the two
  arrangements agree in `ℝ` (Proof/RowAttention.lean, the law; Proof/Attention.lean, array by array).

  The kernel's side: the body's stored block is the attention of its 512 query rows (Proof/KernelPayload.lean), the
  32 blocks tile the result array, and attention at a row reads only that row and its batch's table, so the array ends
  at the attention of the arguments (Proof/KernelValue.lean, over the generated value leg). The reference's side: its
  generated run, read one stage at a time (Proof/RefValue.lean, over the generated read-at-an-index lemmas). The
  precondition read back as "every entry is real": Proof/Finite.lean. The three frames are the generated ones, the
  reference's being its run with the result dropped; nothing was rewritten by the idealization, so that claim is trivial.
-/
import proofs.«411765_j86629490360750_3_alg».proof.Defs
import proofs.«411765_j86629490360750_3_alg».proof.Proof.Gen.Kernel
import proofs.«411765_j86629490360750_3_alg».proof.Proof.Gen.Kernel.Skeleton
import proofs.«411765_j86629490360750_3_alg».proof.Proof.Gen.Kernel.Launch
import proofs.«411765_j86629490360750_3_alg».proof.Proof.Gen.Kernel.Points
import proofs.«411765_j86629490360750_3_alg».proof.Proof.Gen.Kernel.Frame
import proofs.«411765_j86629490360750_3_alg».proof.Proof.Gen.KernelIdeal
import proofs.«411765_j86629490360750_3_alg».proof.Proof.Gen.KernelIdeal.Skeleton
import proofs.«411765_j86629490360750_3_alg».proof.Proof.Gen.KernelIdeal.Launch
import proofs.«411765_j86629490360750_3_alg».proof.Proof.Gen.KernelIdeal.Points
import proofs.«411765_j86629490360750_3_alg».proof.Proof.Gen.KernelIdeal.Frame
import proofs.«411765_j86629490360750_3_alg».proof.Proof.Gen.ReferenceIdeal
import proofs.«411765_j86629490360750_3_alg».proof.Proof.Gen.KernelIdeal.Value
import proofs.«411765_j86629490360750_3_alg».proof.Proof.Gen.ReferenceIdeal.Run
import proofs.«411765_j86629490360750_3_alg».proof.Proof.Gen.ReferenceIdeal.Read
import proofs.«411765_j86629490360750_3_alg».proof.Proof.Gen.Pre_finite_inputs
import proofs.«411765_j86629490360750_3_alg».proof.Proof.KernelValue
import proofs.«411765_j86629490360750_3_alg».proof.Proof.RefValue
import proofs.«411765_j86629490360750_3_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at softmax attention of the same arguments; the kernel divides once after the weighted sum, the
    reference normalises every weight first, and on real inputs the two are one array. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  obtain ⟨hq, hv⟩ := Cert.Finite.all_real _ _ (hpre c)
  exact (Cert.ReferenceIdeal.Read.val_main_v12_eq _ _).trans
    ((Cert.ReferenceIdeal.RefValue.result_eq _ _).trans (Cert.Attention.attnBefore_eq_attnAfter _ _ hq hv))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
